-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S262144x512 .f32) (main_arg1 : IVec S64 32) (main_arg2 : FVec F S64x512x512 .f32) (main_arg3 : FVec F S64x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S64x512x512 .f32 := Host.absf main_arg2
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S64x4096x512 : Shape := ⟨3, ![64, 4096, 512]⟩
abbrev S64x1x512 : Shape := ⟨3, ![64, 1, 512]⟩
abbrev S1x2048x512 : Shape := ⟨3, ![1, 2048, 512]⟩
abbrev S1x512x512 : Shape := ⟨3, ![1, 512, 512]⟩
abbrev S1x1x512 : Shape := ⟨3, ![1, 1, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S64, .i32⟩
  | .hbm, ⟨2, _⟩ => ⟨S64x512x512, .f32⟩
  | .hbm, ⟨3, _⟩ => ⟨S64x512, .f32⟩
  | .hbm, ⟨4, _⟩ => ⟨S64x4096x512, .f32⟩
  | .hbm, ⟨5, _⟩ => ⟨S64x1x512, .f32⟩
  | .hbm, ⟨6, _⟩ => ⟨S64x4096x512, .f32⟩
  | .hbm, ⟨7, _⟩ => ⟨S262144x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S262144x512_S64x4096x512 : S262144x512.ShapeCasts S64x4096x512
  shapeCasts_S64x512_S64x1x512 : S64x512.ShapeCasts S64x1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  shapeCasts_S2048x512_S1x2048x512 : S2048x512.ShapeCasts S1x2048x512
  shapeCasts_S64x4096x512_S262144x512 : S64x4096x512.ShapeCasts S262144x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x4096x512.size a
  hwx0_0 : ∀ i : grid0.Coords, EltTy.bits .f32 = 32 ∨ (Rect.block (s := S64x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S64x4096x512.size a
  hwx0_3 : ∀ i : grid0.Coords, EltTy.bits .f32 = 32 ∨ (Rect.block (s := S64x4096x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S64 : Shape := ⟨1, ![64]⟩
abbrev S64x512x512 : Shape := ⟨3, ![64, 512, 512]⟩
abbrev S64x512 : Shape := ⟨2, ![64, 512]⟩
abbrev S64x4096x512 : Shape := ⟨3, ![64, 4096, 512]⟩
abbrev S64x1x512 : Shape := ⟨3, ![64, 1, 512]⟩

abbrev nBuf : Space → Nat
  | .hbm => 10
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S64, .i32⟩
  | .hbm, ⟨2, _⟩ => ⟨S64x512x512, .f32⟩
  | .hbm, ⟨3, _⟩ => ⟨S64x512, .f32⟩
  | .hbm, ⟨4, _⟩ => ⟨S64x4096x512, .f32⟩
  | .hbm, ⟨5, _⟩ => ⟨S64x4096x512, .f32⟩
  | .hbm, ⟨6, _⟩ => ⟨S64x1x512, .f32⟩
  | .hbm, ⟨7, _⟩ => ⟨S64x4096x512, .f32⟩
  | .hbm, ⟨8, _⟩ => ⟨S64x4096x512, .f32⟩
  | .hbm, ⟨9, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S262144x512_S64x4096x512 : S262144x512.ShapeCasts S64x4096x512
  bcast_S64x512_S64x1x512_0_2 : S64x512.BroadcastsInDim S64x1x512 (![0, 2] : Fin 2 → Fin S64x1x512.rank)
  bcast_S64x1x512_S64x4096x512_0_1_2 : S64x1x512.BroadcastsInDim S64x4096x512 (![0, 1, 2] : Fin 3 → Fin S64x4096x512.rank)
  shapeCasts_S64x4096x512_S262144x512 : S64x4096x512.ShapeCasts S262144x512
  dot_S64x4096x512_S64x512x512_S64x4096x512_2_2_1_1_0_0_wf : DotDims.WF S64x4096x512 S64x512x512 S64x4096x512 [2] [2] [1] [1] [0] [0]

variable [Facts₀]

def dot_S64x4096x512_S64x512x512_S64x4096x512_2_2_1_1_0_0 : DotDims S64x4096x512 S64x512x512 S64x4096x512 where
  lhsContracting := [2]
  rhsContracting := [2]
  lhsNonContracting := [1]
  rhsNonContracting := [1]
  lhsBatch := [0]
  rhsBatch := [0]
  wf := dot_S64x4096x512_S64x512x512_S64x4096x512_2_2_1_1_0_0_wf

class Facts : Prop extends Facts₀ where

variable [Facts]
-- ==== Proof.Payload.lean ====
/-
  The kernel body's arithmetic, read at one entry of the block it stores.

  The body loads a [1, 2048, 512] block of tokens, the expert's [1, 512, 512] weight matrix and its
  [1, 1, 512] bias row, drops the leading unit axes, multiplies tokens by the transposed weights on the
  matrix unit into a zero accumulator (both operands narrowed to bf16 first, which on the extended reals
  changes nothing), adds the bias row to every token row, and puts the leading unit axis back.  At row
  `r` and output feature `o` of the block that is

      ∑ k, tokens[0, r, k] · weights[0, o, k]  +  bias[0, 0, o].
-/
import proofs.«141153_j8383776161863_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The matrix product's operand indices

The product contracts axis 1 of both operands: at output entry `(r, o)` and contraction position `k` the
left operand is read at `(r, k)` and the right one at `(o, k)`. -/

theorem lhs_axis0 (j : S2048x512.Idx) (q : dot_S2048x512_S512x512_S2048x512_1_1_0_0_n_n.contr.Idx) :
    (dot_S2048x512_S512x512_S2048x512_1_1_0_0_n_n.lhsIdx j q 0).val = (j 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_axis1 (j : S2048x512.Idx) (q : dot_S2048x512_S512x512_S2048x512_1_1_0_0_n_n.contr.Idx) :
    (dot_S2048x512_S512x512_S2048x512_1_1_0_0_n_n.lhsIdx j q 1).val = (q ⟨0, by decide⟩).val :=
  dot_S2048x512_S512x512_S2048x512_1_1_0_0_n_n.lhsIdx_val_of_single rfl j q
theorem rhs_axis0 (j : S2048x512.Idx) (q : dot_S2048x512_S512x512_S2048x512_1_1_0_0_n_n.contr.Idx) :
    (dot_S2048x512_S512x512_S2048x512_1_1_0_0_n_n.rhsIdx j q 0).val = (j 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_axis1 (j : S2048x512.Idx) (q : dot_S2048x512_S512x512_S2048x512_1_1_0_0_n_n.contr.Idx) :
    (dot_S2048x512_S512x512_S2048x512_1_1_0_0_n_n.rhsIdx j q 1).val = (q ⟨0, by decide⟩).val :=
  dot_S2048x512_S512x512_S2048x512_1_1_0_0_n_n.rhsIdx_val_of_single rfl j q

/-- The product into a zero accumulator at entry `(r, o)`: the inner product of row `r` of the left operand
    with row `o` of the right one. -/
theorem product_at {φ₁ φ₂ : FTy} (a : FVec Ideal S2048x512 φ₁) (b : FVec Ideal S512x512 φ₂) (r : Fin 2048) (o : Fin 512) :
    matmul (F := Ideal) dot_S2048x512_S512x512_S2048x512_1_1_0_0_n_n none a b (constant (F := Ideal) S2048x512 .f32 0x00000000#32) (ix2 r o)
      = ∑ k : Fin 512, a (ix2 r k) * b (ix2 o k) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 r o) ((contrEquiv1 dot_S2048x512_S512x512_S2048x512_1_1_0_0_n_n 512 rfl rfl).symm k) = ix2 r k := funext fun ax => Fin.ext (by
    match ax with
    | ⟨0, _⟩ => exact lhs_axis0 _ _
    | ⟨1, _⟩ => exact (lhs_axis1 _ _).trans hk)
  have er : dot_S2048x512_S512x512_S2048x512_1_1_0_0_n_n.rhsIdx (ix2 r o) ((contrEquiv1 dot_S2048x512_S512x512_S2048x512_1_1_0_0_n_n 512 rfl rfl).symm k) = ix2 o k := funext fun ax => Fin.ext (by
    match ax with
    | ⟨0, _⟩ => exact rhs_axis0 _ _
    | ⟨1, _⟩ => exact (rhs_axis1 _ _).trans hk)
  rw [el, er]

/-- The stored value at row `r`, feature `o` of the block. -/
theorem stored_at (v0 : Vec Ideal S1x2048x512 .f32) (v3 : Vec Ideal S1x512x512 .f32) (v7 : Vec Ideal S1x1x512 .f32)
    (r : Fin 2048) (o : Fin 512) :
    k0_pay1 (F := Ideal) v0 v3 v7 (ix3 (0 : Fin 1) r o)
      = (∑ k : Fin 512, v0 (ix3 (0 : Fin 1) r k) * v3 (ix3 (0 : Fin 1) o k)) + v7 (ix3 (0 : Fin 1) (0 : Fin 1) o) := by
  unfold k0_pay1
  refine (shapeCast_ab_1ab_apply _ _ (0 : Fin 1) r o).trans ?_
  refine (addf_apply _ _ _).trans ?_
  refine congrArg₂ (· + ·) ((product_at _ _ r o).trans ?_) ?_
  · refine Finset.sum_congr rfl fun k _ => ?_
    refine congrArg₂ (· * ·) ?_ ?_
    · exact (truncf_apply (φ := .f32) (ψ := .bf16) _ bitsLt_bf16_f32 _).trans (shapeCast_1ab_ab_apply v0 _ r k)
    · exact (truncf_apply (φ := .f32) (ψ := .bf16) _ bitsLt_bf16_f32 _).trans (shapeCast_1ab_ab_apply v3 _ o k)
  · exact (broadcastTo_1b_ab_apply _ _ r o).trans (shapeCast_1ab_ab_apply v7 _ (0 : Fin 1) o)

end Cert.KernelIdeal.Block

end
-- ==== Proof.Spec.lean ====
/-
  The function both programs compute, stated once over the literal shapes.

  A batch of 64 independent linear layers ("experts"): expert `e` owns 4096 consecutive rows of the
  token matrix, a 512 × 512 weight matrix and a bias row.  For expert `e`, token `t` of its group and
  output feature `o` the result is

      ∑ k, x[e, t, k] · w[e, o, k]  +  b[e, 0, o]

  on the extended reals.  The token matrix arrives as [262144, 512] and is regrouped to
  [64, 4096, 512] before, and the result flattened back after; the bias arrives as [64, 512] and is
  given a unit middle axis.  Those three re-layouts are the same on both sides and stay outside this
  function.
-/
import Idealize.ShloMosaic.PureOps.Ideal
import Idealize.ShloMosaic.Lib.ValueIdx

noncomputable section

namespace Cert.GroupedLinear

open Idealize.ShloMosaic Idealize.ShloMosaic.ValueIdx

/-- The grouped token array, the stacked weights, the bias with a unit middle axis. -/
abbrev STok : Shape := ⟨3, ![64, 4096, 512]⟩
abbrev SWgt : Shape := ⟨3, ![64, 512, 512]⟩
abbrev SBias : Shape := ⟨3, ![64, 1, 512]⟩

/-- One entry of the grouped linear layer: the inner product of token `(e, t)` with row `o` of expert `e`'s
    weight matrix, plus that expert's bias at `o`. -/
def entry (x : STok.Idx → EReal) (w : SWgt.Idx → EReal) (b : SBias.Idx → EReal)
    (e : Fin 64) (t : Fin 4096) (o : Fin 512) : EReal :=
  (∑ k : Fin 512, x (ix3 e t k) * w (ix3 e o k)) + b (ix3 e (0 : Fin 1) o)

/-- The whole grouped result, index by index. -/
def grouped (x : STok.Idx → EReal) (w : SWgt.Idx → EReal) (b : SBias.Idx → EReal) : STok.Idx → EReal :=
  fun j => entry x w b (j 0) (j 1) (j 2)

theorem grouped_apply (x : STok.Idx → EReal) (w : SWgt.Idx → EReal) (b : SBias.Idx → EReal)
    (e : Fin 64) (t : Fin 4096) (o : Fin 512) : grouped x w b (ix3 e t o) = entry x w b e t o := rfl

end Cert.GroupedLinear

end
-- ==== Proof.KernelValue.lean ====
/-
  What the kernel's program leaves in its result, as one function of the argument arrays.

  The grid is 64 experts × 2 halves of an expert's 4096 tokens.  At the point (e, h) the pipeline hands the
  body tokens 2048·h … 2048·h + 2047 of expert e, expert e's whole weight matrix and its bias row, and writes
  the body's block back over the same token rows of the result.  Entry by entry the block is the grouped linear
  layer of the arrays the region finds (the payload read at an entry), the 128 blocks tile the [64, 4096, 512]
  result, and the host lines around the region only regroup the token matrix, give the bias a unit axis and
  flatten the result.
-/
import proofs.«141153_j8383776161863_1_alg».proof.Proof.Gen.KernelIdeal.Frame
import proofs.«141153_j8383776161863_1_alg».proof.Proof.Payload
import proofs.«141153_j8383776161863_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Cert.GroupedLinear Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays the region finds -/

/-- The token window's array is the token matrix regrouped by expert. -/
theorem tokens_eq (c : Dev nD) :
    (V m c main_v0 : S64x4096x512.Idx → EReal)
      = shapeCast S64x4096x512 (m ((c : Thread nD τ).loc main_arg0)) shapeCasts_S262144x512_S64x4096x512 := by
  show StableHlo.after hostOps0 (fun b => m (c, b)) (Proc.devRef .tc main_v0) = _
  after_results
  rfl

/-- The bias window's array is the bias with a unit middle axis. -/
theorem bias_eq (c : Dev nD) :
    (V m c main_v1 : S64x1x512.Idx → EReal)
      = shapeCast S64x1x512 (m ((c : Thread nD τ).loc main_arg3)) shapeCasts_S64x512_S64x1x512 := by
  show StableHlo.after hostOps0 (fun b => m (c, b)) (Proc.devRef .tc main_v1) = _
  after_results
  rfl

/-! ## The schedule: which blocks a grid point touches -/

/-- Point `t` is expert `t / 2`, half `t % 2`: the token and result windows sit at block (t / 2, t % 2, 0), the
    weight and bias windows at block (t / 2, 0, 0). -/
theorem idx_facts : ∀ t : Fin cfg0.N,
    win0_3.index t (0 : Fin 3) = t.val / 2 ∧ win0_3.index t (1 : Fin 3) = t.val % 2 ∧ win0_3.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-! ## One block, entry by entry -/

/-- If three blocks are the token rows `2048·h + r` of expert `e`, expert `e`'s weights and its bias row, the body's
    stored value at block entry `j` is the grouped layer at the array entry `i` under it. -/
theorem block_entry (x0 : Vec Ideal S1x2048x512 .f32) (x1 : Vec Ideal S1x512x512 .f32) (x2 : Vec Ideal S1x1x512 .f32)
    (X : STok.Idx → EReal) (W : SWgt.Idx → EReal) (B : SBias.Idx → EReal) (e h : Nat)
    (h0 : ∀ (r : Fin 2048) (k : Fin 512) (i : STok.Idx), (i 0).val = e → (i 1).val = h * 2048 + r.val → (i 2).val = k.val →
      x0 (ix3 (0 : Fin 1) r k) = X i)
    (h1 : ∀ (o k : Fin 512) (i : SWgt.Idx), (i 0).val = e → (i 1).val = o.val → (i 2).val = k.val →
      x1 (ix3 (0 : Fin 1) o k) = W i)
    (h2 : ∀ (o : Fin 512) (i : SBias.Idx), (i 0).val = e → (i 2).val = o.val → x2 (ix3 (0 : Fin 1) (0 : Fin 1) o) = B i)
    (j : S1x2048x512.Idx) (i : STok.Idx) (hi0 : (i 0).val = e) (hi1 : (i 1).val = h * 2048 + (j 1).val) (hi2 : (i 2).val = (j 2).val) :
    k0_pay1 (F := Ideal) x0 x1 x2 j = grouped X W B i := by
  obtain ⟨u, r, o, rfl⟩ : ∃ (u : Fin 1) (r : Fin 2048) (o : Fin 512), j = ix3 u r o := ⟨j 0, j 1, j 2, eq_ix3 j⟩
  obtain rfl : u = 0 := Subsingleton.elim _ _
  refine (stored_at x0 x1 x2 r o).trans ?_
  unfold grouped entry
  refine congrArg₂ (· + ·) (Finset.sum_congr rfl fun k _ => congrArg₂ (· * ·) ?_ ?_) ?_
  · exact h0 r k _ hi0 hi1 rfl
  · exact h1 o k _ hi0 hi2 rfl
  · exact h2 o _ hi0 hi2

/-- The write-back of point `t` is block `t` of the grouped layer of the arrays the region finds. -/
theorem flushed_eq (c : Dev nD) (t : Fin cfg0.N) :
    (dats m 0 c).flushed 3 t
      = ((cfg0.win 3).blk t).view.read (Elt Ideal) (grouped (V m c main_v0) (V m c main_arg2) (V m c main_v1)) := by
  show (cfg0.win 3).cut (grid0.coords t) ((dats m 0 c).after 3 t) = _
  rw [after0_3]
  unfold out0_3
  rw [View.canon_unit_zero hz]
  simp only [View.ld_unit_zero (S := S1x2048x512) hz, View.ld_unit_zero (S := S1x512x512) hz, View.ld_unit_zero (S := S1x1x512) hz]
  obtain ⟨e30, e31, e32, e00, e01, e02, e10, e11, e12, e20, e21, e22⟩ := idx_facts t
  funext j
  show k0_pay1 (F := Ideal) (iblk m c 0 t) (iblk m c 1 t) (iblk m c 2 t) j
    = grouped (V m c main_v0) (V m c main_arg2) (V m c main_v1) (((cfg0.win 3).blk t).view.emb j)
  have hj0 : (j 0).val < 1 := (j 0).isLt
  refine block_entry (iblk m c 0 t) (iblk m c 1 t) (iblk m c 2 t) (V m c main_v0) (V m c main_arg2) (V m c main_v1)
    (t.val / 2) (t.val % 2) ?_ ?_ ?_ j (((cfg0.win 3).blk t).view.emb j) ?_ ?_ ?_
  · intro r k i a0 a1 a2
    unfold iblk
    show V m c main_v0 (((cfg0.win 0).blk t).view.emb (ix3 (0 : Fin 1) r k)) = V m c main_v0 i
    congr 1
    funext a
    apply Fin.ext
    match a with
    | ⟨0, _⟩ => show win0_0.index t (0 : Fin 3) * 1 + 1 * 0 = (i 0).val; omega
    | ⟨1, _⟩ => show win0_0.index t (1 : Fin 3) * 2048 + 1 * r.val = (i 1).val; omega
    | ⟨2, _⟩ => show win0_0.index t (2 : Fin 3) * 512 + 1 * k.val = (i 2).val; omega
  · intro o k i a0 a1 a2
    unfold iblk
    show V m c main_arg2 (((cfg0.win 1).blk t).view.emb (ix3 (0 : Fin 1) o k)) = V m c main_arg2 i
    congr 1
    funext a
    apply Fin.ext
    match a with
    | ⟨0, _⟩ => show win0_1.index t (0 : Fin 3) * 1 + 1 * 0 = (i 0).val; omega
    | ⟨1, _⟩ => show win0_1.index t (1 : Fin 3) * 512 + 1 * o.val = (i 1).val; omega
    | ⟨2, _⟩ => show win0_1.index t (2 : Fin 3) * 512 + 1 * k.val = (i 2).val; omega
  · intro o i a0 a2
    have hi1 : (i 1).val < 1 := (i 1).isLt
    unfold iblk
    show V m c main_v1 (((cfg0.win 2).blk t).view.emb (ix3 (0 : Fin 1) (0 : Fin 1) o)) = V m c main_v1 i
    congr 1
    funext a
    apply Fin.ext
    match a with
    | ⟨0, _⟩ => show win0_2.index t (0 : Fin 3) * 1 + 1 * 0 = (i 0).val; omega
    | ⟨1, _⟩ => show win0_2.index t (1 : Fin 3) * 1 + 1 * 0 = (i 1).val; omega
    | ⟨2, _⟩ => show win0_2.index t (2 : Fin 3) * 512 + 1 * o.val = (i 2).val; omega
  · show win0_3.index t (0 : Fin 3) * 1 + 1 * (j 0).val = t.val / 2; omega
  · show win0_3.index t (1 : Fin 3) * 2048 + 1 * (j 1).val = t.val % 2 * 2048 + (j 1).val; omega
  · show win0_3.index t (2 : Fin 3) * 512 + 1 * (j 2).val = (j 2).val; omega

/-- An entry of the result window's array is in point `t`'s block iff each coordinate is in the block's range. -/
theorem mem_blk (t : Fin cfg0.N) (i : S64x4096x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v2).slice (win0_3.rect t)).set ↔ _
  rw [View.set_slice_whole, Rect.mem_set_unit]
  exact Iff.rfl

/-- The 128 blocks tile the result window's array: entry (e, s, o) lies in the block of point 2·e + s / 2048. -/
theorem covered (i : S64x4096x512.Idx) :
    ∃ t : Fin cfg0.N, (cfg0.win 3).flush t = true ∧ i ∈ ((cfg0.win 3).blk t).view.set := by
  have hi0 : (i 0).val < 64 := (i 0).isLt
  have hi1 : (i 1).val < 4096 := (i 1).isLt
  have hi2 : (i 2).val < 512 := (i 2).isLt
  have hN : cfg0.N = 128 := N_0
  obtain ⟨t, ht⟩ : ∃ t : Fin cfg0.N, t.val = (i 0).val * 2 + (i 1).val / 2048 :=
    ⟨⟨(i 0).val * 2 + (i 1).val / 2048, by rw [hN]; omega⟩, rfl⟩
  refine ⟨t, flush0_3 t, ?_⟩
  rw [mem_blk]
  obtain ⟨e30, e31, e32, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- The result window's array after the region: the grouped layer of the arrays the region finds. -/
theorem final (c : Dev nD) :
    (dats m 0 c).arrAt 3 cfg0.N = grouped (V m c main_v0) (V m c main_arg2) (V m c main_v1) :=
  (dats m 0 c).arrAt_eq_of_cover 3 (grouped (V m c main_v0) (V m c main_arg2) (V m c main_v1))
    (fun t _ => flushed_eq m c t) covered

/-! ## The program's result -/

/-- What the program returns: the grouped layer of the regrouped tokens, the weights and the bias with its unit
    axis, flattened back to [262144, 512]. -/
def result (c : Dev nD) : Buf (Elt Ideal) ((c : Thread nD τ).loc main_v3) :=
  shapeCast S262144x512
    (grouped (shapeCast S64x4096x512 (m ((c : Thread nD τ).loc main_arg0)) shapeCasts_S262144x512_S64x4096x512)
      (m ((c : Thread nD τ).loc main_arg2))
      (shapeCast S64x1x512 (m ((c : Thread nD τ).loc main_arg3)) shapeCasts_S64x512_S64x1x512))
    shapeCasts_S64x4096x512_S262144x512

/-- The host line after the region flattens the result window's array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = grouped (V m c main_v0) (V m c main_arg2) (V m c main_v1) :=
    (Pipeline.withArrays_arr spec0 launch0.win.arr_inj c _ _ 3).trans (final m c)
  rw [e, tokens_eq, bias_eq, V_main_arg2]
  rfl

/-- Every weakly fair execution of the program ends with the result at `result` and the arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's result as the same grouped linear layer.

  The reference regroups the token matrix by expert, takes the batched product over the shared feature axis
  (expert by expert, tokens against the rows of the weight matrix), broadcasts the bias — first to a unit middle
  axis, then along the tokens — adds, and flattens.  Read entry by entry, the sum before the final flattening
  is the grouped layer of the regrouped tokens, the weights and the bias with its unit axis.
-/
import proofs.«141153_j8383776161863_1_alg».proof.Proof.Gen.ReferenceIdeal.Read
import proofs.«141153_j8383776161863_1_alg».proof.Proof.Spec

noncomputable section

namespace Cert.ReferenceIdeal.Whole

open Cert.ReferenceIdeal Cert.ReferenceIdeal.Gen Cert.ReferenceIdeal.Read Cert.GroupedLinear Idealize.ShloMosaic Idealize.ShloMosaic.ValueIdx

/-- At result entry (e, t, o) and position k the product reads the tokens at (e, t, k) … -/
theorem lhs_at (i : S64x4096x512.Idx) (k : Fin 512) : lidx_main_v1 i k = ix3 (i 0) (i 1) k :=
  funext fun a => by match a with | ⟨0, _⟩ => rfl | ⟨1, _⟩ => rfl | ⟨2, _⟩ => rfl
/-- … and the weights at (e, o, k); -/
theorem rhs_at (i : S64x4096x512.Idx) (k : Fin 512) : ridx_main_v1 i k = ix3 (i 0) (i 2) k :=
  funext fun a => by match a with | ⟨0, _⟩ => rfl | ⟨1, _⟩ => rfl | ⟨2, _⟩ => rfl
/-- the bias broadcast along the tokens is read at (e, 0, o). -/
theorem bias_at (i : S64x4096x512.Idx) : idx_main_v3 i = ix3 (i 0) (0 : Fin 1) (i 2) :=
  funext fun a => by match a with | ⟨0, _⟩ => rfl | ⟨1, _⟩ => rfl | ⟨2, _⟩ => rfl

/-- The sum before the final flattening is the grouped layer. -/
theorem sum_eq (x0 : (⟨S262144x512, .f32⟩ : BufTy).Contents (Elt Ideal)) (x2 : (⟨S64x512x512, .f32⟩ : BufTy).Contents (Elt Ideal))
    (x3 : (⟨S64x512, .f32⟩ : BufTy).Contents (Elt Ideal)) :
    val_main_v4 (F := Ideal) x0 x2 x3 = grouped (val_main_v0 (F := Ideal) x0) x2 (val_main_v2 (F := Ideal) x3) := by
  funext i
  rw [val_main_v4_apply, val_main_v1_apply, val_main_v3_apply]
  simp only [lhs_at, rhs_at, bias_at]
  rfl

/-- The bias with a unit middle axis, whether made by a broadcast or by a reshape, holds bias (e, o) at (e, 0, o). -/
theorem bias_unit_axis (x3 : (⟨S64x512, .f32⟩ : BufTy).Contents (Elt Ideal)) (h : S64x512.ShapeCasts S64x1x512) :
    val_main_v2 (F := Ideal) x3 = shapeCast S64x1x512 x3 h := by
  funext i
  rw [val_main_v2_apply]
  refine (shapeCast_apply x3 h i (idx_main_v2 i) ?_).symm
  have h1 : (i 1).val < 1 := (i 1).isLt
  rw [Shape.rowMajor_val_two, Shape.rowMajor_val_three]
  show (i 0).val * 512 + (i 2).val = ((i 0).val * 1 + (i 1).val) * 512 + (i 2).val
  omega

/-- The reference's result: the grouped layer of the regrouped tokens, the weights and the bias with its unit
    axis, flattened. -/
theorem result_eq (x0 : (⟨S262144x512, .f32⟩ : BufTy).Contents (Elt Ideal)) (x2 : (⟨S64x512x512, .f32⟩ : BufTy).Contents (Elt Ideal))
    (x3 : (⟨S64x512, .f32⟩ : BufTy).Contents (Elt Ideal)) (h : S64x512.ShapeCasts S64x1x512) :
    val_main_v5 (F := Ideal) x0 x2 x3
      = shapeCast S262144x512 (grouped (shapeCast S64x4096x512 x0 shapeCasts_S262144x512_S64x4096x512) x2 (shapeCast S64x1x512 x3 h))
          shapeCasts_S64x4096x512_S262144x512 := by
  unfold val_main_v5
  rw [sum_eq, bias_unit_axis x3 h]
  rfl

end Cert.ReferenceIdeal.Whole

end
-- ==== Proof.lean ====
/-
  A batch of 64 linear layers, tokens pre-grouped by expert: the Pallas kernel against `einsum + bias`.

  Both programs regroup the [262144, 512] token matrix as [64, 4096, 512] and return, flattened back,

      out[e, t, o] = ∑ k, x[e, t, k] · w[e, o, k] + b[e, o]          (e < 64, t < 4096, o, k < 512)

  on the extended reals (`Cert.GroupedLinear.grouped`, Proof/Spec.lean).  The kernel computes it block by block:
  grid point (e, h) multiplies tokens 2048·h … 2048·h + 2047 of expert e by the transposed weights of expert e
  into a zero accumulator and adds the bias row; narrowing the operands to bf16 is the identity on the extended
  reals, so each stored entry is the same inner product plus bias (Proof/Payload.lean), and the 128 blocks tile
  the result (Proof/KernelValue.lean).  The reference takes one batched product and adds the bias broadcast along
  the tokens (Proof/RefValue.lean).  The two sums run over the same index in the same order and nothing is
  redistributed or cancelled, so the equality needs no finiteness of the inputs.  The bias gets its unit middle
  axis by a reshape in one program and by a broadcast in the other: the same array.
-/
import proofs.«141153_j8383776161863_1_alg».proof.Defs
import proofs.«141153_j8383776161863_1_alg».proof.Proof.Gen.Kernel
import proofs.«141153_j8383776161863_1_alg».proof.Proof.Gen.Kernel.Frame
import proofs.«141153_j8383776161863_1_alg».proof.Proof.Gen.KernelIdeal
import proofs.«141153_j8383776161863_1_alg».proof.Proof.Gen.KernelIdeal.Frame
import proofs.«141153_j8383776161863_1_alg».proof.Proof.Gen.ReferenceIdeal
import proofs.«141153_j8383776161863_1_alg».proof.Proof.Gen.ReferenceIdeal.Run
import proofs.«141153_j8383776161863_1_alg».proof.Proof.Gen.ReferenceIdeal.Read
import proofs.«141153_j8383776161863_1_alg».proof.Proof.Gen.Pre_finite_inputs
import proofs.«141153_j8383776161863_1_alg».proof.Proof.KernelValue
import proofs.«141153_j8383776161863_1_alg».proof.Proof.RefValue
import Idealize.ShloMosaic.Adequacy
import Idealize.ShloMosaic.Init

noncomputable section

namespace Cert.Proof

open Idealize.ShloMosaic Idealize.SL.Sem

/-- The kernel's program as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is six host operations in a row: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the grouped linear layer of the same arguments, flattened. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact (Cert.ReferenceIdeal.Read.val_main_v5_eq _ _ _).trans
    (Cert.ReferenceIdeal.Whole.result_eq _ _ _ Cert.KernelIdeal.Gen.shapeCasts_S64x512_S64x1x512)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
